-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2048 : Shape := ⟨3, ![16, 1024, 2048]⟩
abbrev S_ : Shape := ⟨0, ![]⟩

class Facts : Prop where
  bcast_S_S16x1024x2048 : S_.BroadcastsInDim S16x1024x2048 (![] : Fin 0 → Fin S16x1024x2048.rank)
  reducesTo_S16x1024x2048_S_d0_1_2 : S16x1024x2048.ReducesTo [0, 1, 2] S_
  h_S_ : 0 < S_.numel

variable [Facts]

def fn {F : FTy → Type} [FloatOps F] (main_arg0 : FVec F S16x1024x2048 .f32) (main_arg1 : FVec F S16x1024x2048 .f32) : IVec S_ 1 :=
  let main_v0 : FVec F S16x1024x2048 .f32 := Host.absf main_arg0
  let main_cst : FVec F S_ .f32 := constant S_ .f32 0x7F800000#32
  let main_v1 : FVec F S16x1024x2048 .f32 := broadcastInDim S16x1024x2048 ![] bcast_S_S16x1024x2048 main_cst
  let main_v2 : IVec S16x1024x2048 1 := cmpf .olt main_v0 main_v1
  let main_c : IVec S_ 1 := constantI S_ 1 1#1
  let main_v3 : IVec S_ 1 := (fun x v => Host.reduce IntOp.andi x v reducesTo_S16x1024x2048_S_d0_1_2 h_S_) main_v2 main_c
  let main_v4 : FVec F S16x1024x2048 .f32 := Host.absf main_arg1
  let main_cst_0 : FVec F S_ .f32 := constant S_ .f32 0x7F800000#32
  let main_v5 : FVec F S16x1024x2048 .f32 := broadcastInDim S16x1024x2048 ![] bcast_S_S16x1024x2048 main_cst_0
  let main_v6 : IVec S16x1024x2048 1 := cmpf .olt main_v4 main_v5
  let main_c_1 : IVec S_ 1 := constantI S_ 1 1#1
  let main_v7 : IVec S_ 1 := (fun x v => Host.reduce IntOp.andi x v reducesTo_S16x1024x2048_S_d0_1_2 h_S_) main_v6 main_c_1
  let main_v8 : IVec S_ 1 := andi main_v3 main_v7
  main_v8
-- ==== Kernel.lean ====
abbrev S16x1024x2048 : Shape := ⟨3, ![16, 1024, 2048]⟩
abbrev S16x1024 : Shape := ⟨2, ![16, 1024]⟩
abbrev S8x128x2048 : Shape := ⟨3, ![8, 128, 2048]⟩
abbrev S8x128 : Shape := ⟨2, ![8, 128]⟩
abbrev S8x128x128 : Shape := ⟨3, ![8, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S16x1024x2048, .f32⟩
  | .hbm, ⟨1, _⟩ => ⟨S16x1024x2048, .f32⟩
  | .hbm, ⟨2, _⟩ => ⟨S16x1024, .f32⟩
  | .local _ .vmem, ⟨0, _⟩ => ⟨S8x128x2048, .f32⟩
  | .local _ .vmem, ⟨1, _⟩ => ⟨S8x128x2048, .f32⟩
  | .local _ .vmem, ⟨2, _⟩ => ⟨S8x128x2048, .f32⟩
  | .local _ .vmem, ⟨3, _⟩ => ⟨S8x128x2048, .f32⟩
  | .local _ .vmem, ⟨4, _⟩ => ⟨S8x128, .f32⟩
  | .local _ .vmem, ⟨5, _⟩ => ⟨S8x128, .f32⟩
  | _, _ => ⟨S16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  let c128_i32 : BitVec 32 := 128#32
  let v3 : BitVec 32 := Scalar.muli c0_i32 c128_i32
  v3
def k0_off1 (c0_i32 : BitVec 32) : Fin 3 → Nat :=
  let c0 : Index := 0#32
  let c0_2 : Index := 0#32
  let c128_i32 : BitVec 32 := 128#32
  let v3 : BitVec 32 := Scalar.muli c0_i32 c128_i32
  let v4 : BitVec 32 := v3
  let v5 : Index := Scalar.indexCast v4
  ![0, 0, v5.toNat]
def k0_mult2 : BitVec 32 :=
  let c1_i32 : BitVec 32 := 1#32
  let c128_i32_8 : BitVec 32 := 128#32
  let v16 : BitVec 32 := Scalar.muli c1_i32 c128_i32_8
  v16
def k0_mult3 : BitVec 32 :=
  let c2_i32 : BitVec 32 := 2#32
  let c128_i32_16 : BitVec 32 := 128#32
  let v29 : BitVec 32 := Scalar.muli c2_i32 c128_i32_16
  v29
def k0_mult4 : BitVec 32 :=
  let c3_i32 : BitVec 32 := 3#32
  let c128_i32_24 : BitVec 32 := 128#32
  let v42 : BitVec 32 := Scalar.muli c3_i32 c128_i32_24
  v42
def k0_mult5 : BitVec 32 :=
  let c4_i32 : BitVec 32 := 4#32
  let c128_i32_32 : BitVec 32 := 128#32
  let v55 : BitVec 32 := Scalar.muli c4_i32 c128_i32_32
  v55
def k0_mult6 : BitVec 32 :=
  let c5_i32 : BitVec 32 := 5#32
  let c128_i32_40 : BitVec 32 := 128#32
  let v68 : BitVec 32 := Scalar.muli c5_i32 c128_i32_40
  v68
def k0_mult7 : BitVec 32 :=
  let c6_i32 : BitVec 32 := 6#32
  let c128_i32_48 : BitVec 32 := 128#32
  let v81 : BitVec 32 := Scalar.muli c6_i32 c128_i32_48
  v81
def k0_mult8 : BitVec 32 :=
  let c7_i32 : BitVec 32 := 7#32
  let c128_i32_56 : BitVec 32 := 128#32
  let v94 : BitVec 32 := Scalar.muli c7_i32 c128_i32_56
  v94
def k0_mult9 : BitVec 32 :=
  let c8_i32 : BitVec 32 := 8#32
  let c128_i32_64 : BitVec 32 := 128#32
  let v107 : BitVec 32 := Scalar.muli c8_i32 c128_i32_64
  v107
def k0_mult10 : BitVec 32 :=
  let c9_i32 : BitVec 32 := 9#32
  let c128_i32_72 : BitVec 32 := 128#32
  let v120 : BitVec 32 := Scalar.muli c9_i32 c128_i32_72
  v120
def k0_mult11 : BitVec 32 :=
  let c10_i32 : BitVec 32 := 10#32
  let c128_i32_80 : BitVec 32 := 128#32
  let v133 : BitVec 32 := Scalar.muli c10_i32 c128_i32_80
  v133
def k0_mult12 : BitVec 32 :=
  let c11_i32 : BitVec 32 := 11#32
  let c128_i32_88 : BitVec 32 := 128#32
  let v146 : BitVec 32 := Scalar.muli c11_i32 c128_i32_88
  v146
def k0_mult13 : BitVec 32 :=
  let c12_i32 : BitVec 32 := 12#32
  let c128_i32_96 : BitVec 32 := 128#32
  let v159 : BitVec 32 := Scalar.muli c12_i32 c128_i32_96
  v159
def k0_mult14 : BitVec 32 :=
  let c13_i32 : BitVec 32 := 13#32
  let c128_i32_104 : BitVec 32 := 128#32
  let v172 : BitVec 32 := Scalar.muli c13_i32 c128_i32_104
  v172
def k0_mult15 : BitVec 32 :=
  let c14_i32 : BitVec 32 := 14#32
  let c128_i32_112 : BitVec 32 := 128#32
  let v185 : BitVec 32 := Scalar.muli c14_i32 c128_i32_112
  v185
def k0_mult16 : BitVec 32 :=
  let c15_i32 : BitVec 32 := 15#32
  let c128_i32_120 : BitVec 32 := 128#32
  let v198 : BitVec 32 := Scalar.muli c15_i32 c128_i32_120
  v198
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S8x128x128 : 0 < S8x128x128.numel
  reduces_S8x128x128_S8x128 : S8x128x128.Reduces [2] S8x128
  inb_S8x128_S8x128_0_0 : ∀ a, (![0, 0] : Fin 2 → Nat) a + S8x128.size a ≤ S8x128.size a
  h_S8x128 : 0 < S8x128.numel
  hrank0 : 0 < grid0.rank
  k0_mult1_dvd : 128 ∣ k0_mult1.toNat
  k0_off1_inb : ∀ (r : Fin 16), ∀ a, (k0_off1 (BitVec.ofNat 32 r.val)) a + S8x128x128.size a ≤ S8x128x2048.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S16x1024x2048.size a
  hwx0_0 : ∀ i : grid0.Coords, EltTy.bits .f32 = 32 ∨ (Rect.block (s := S16x1024x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S16x1024x2048.size a
  hwx0_1 : ∀ i : grid0.Coords, EltTy.bits .f32 = 32 ∨ (Rect.block (s := S16x1024x2048) S8x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x1024.size a
  hwx0_2 : ∀ i : grid0.Coords, EltTy.bits .f32 = 32 ∨ (Rect.block (s := S16x1024) S8x128.size (cc0_transform_2 i) (hinb0_2 i)).WholeWords (EltTy.packing .f32)

variable [Facts₀]

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x2048 : Shape := ⟨3, ![16, 1024, 2048]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x2048, .f32⟩
  | .hbm, ⟨1, _⟩ => ⟨S16x1024x2048, .f32⟩
  | .hbm, ⟨2, _⟩ => ⟨S_, .f32⟩
  | .hbm, ⟨3, _⟩ => ⟨S16x1024, .f32⟩
  | .hbm, ⟨4, _⟩ => ⟨S16x1024x1, .f32⟩
  | .hbm, ⟨5, _⟩ => ⟨S_, .f32⟩
  | .hbm, ⟨6, _⟩ => ⟨S16x1024x1, .f32⟩
  | .hbm, ⟨7, _⟩ => ⟨S16x1024x1, .f32⟩
  | .hbm, ⟨8, _⟩ => ⟨S16x1024x2048, .f32⟩
  | .hbm, ⟨9, _⟩ => ⟨S16x1024x2048, .f32⟩
  | .hbm, ⟨10, _⟩ => ⟨S_, .f32⟩
  | .hbm, ⟨11, _⟩ => ⟨S16x1024, .f32⟩
  | .hbm, ⟨12, _⟩ => ⟨S16x1024x1, .f32⟩
  | .hbm, ⟨13, _⟩ => ⟨S_, .f32⟩
  | .hbm, ⟨14, _⟩ => ⟨S16x1024x1, .f32⟩
  | .hbm, ⟨15, _⟩ => ⟨S16x1024x1, .f32⟩
  | .hbm, ⟨16, _⟩ => ⟨S16x1024x2048, .f32⟩
  | .hbm, ⟨17, _⟩ => ⟨S16x1024x2048, .f32⟩
  | .hbm, ⟨18, _⟩ => ⟨S16x1024x2048, .f32⟩
  | .hbm, ⟨19, _⟩ => ⟨S_, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | _, _ => ⟨S16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x1024x2048_S16x1024_d2 : S16x1024x2048.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x2048_0_1_2 : S16x1024x1.BroadcastsInDim S16x1024x2048 (![0, 1, 2] : Fin 3 → Fin S16x1024x2048.rank)
  bcast_S_S16x1024 : S_.BroadcastsInDim S16x1024 (![] : Fin 0 → Fin S16x1024.rank)

variable [Facts₀]

class Facts : Prop extends Facts₀ where

variable [Facts]
-- ==== Proof.RowCov.lean ====
/-
  One row of the temporal cross-covariance, over the extended reals.

  For a row of T = 2048 samples x and y, the covariance numerator can be written two ways. Centred: first take the
  means mx = (Σ x) / T and my = (Σ y) / T, then sum the products (x k − mx) · (y k − my). Fused: from the three sums
  Σ x, Σ y and Σ x·y alone, as Σ x·y − (T · mx) · my. Expanding the centred product gives
  Σ x·y − my · Σ x − mx · Σ y + T · mx · my, and since Σ x = T · mx and Σ y = T · my the last three terms collapse to
  − T · mx · my. The expansion uses distributivity, which on the extended reals holds only away from the infinities,
  so the two forms are proved equal for rows of real numbers. Both forms then divide by 7 and clip below at 0.
-/
import Idealize.ShloMosaic.PureOps.Ideal
import Idealize.ShloMosaic.PureOps.Ideal.Laws

noncomputable section

namespace Cert.RowCov

open Idealize.ShloMosaic

/-- The word 0x45000000 denotes 2048 = 2^11. -/
theorem ofBits_2048 : Ideal.ofBits .f32 0x45000000#32 = ((2048 : ℝ) : EReal) := by
  simp [Ideal.ofBits, Ideal.ieee, -EReal.coe_mul]; norm_num

/-- The word 0x40E00000 denotes 7 = 1.75 · 2^2. -/
theorem ofBits_7 : Ideal.ofBits .f32 0x40E00000#32 = ((7 : ℝ) : EReal) := by
  simp [Ideal.ofBits, Ideal.ieee, -EReal.coe_mul]; norm_num

/-- The fused form of a row: from Σ x, Σ y and Σ x·y. -/
def fused (x y : Fin 2048 → EReal) : EReal :=
  max (Ideal.div ((∑ k, x k * y k)
      - (Ideal.ofBits .f32 0x45000000#32 * Ideal.div (∑ k, x k) (Ideal.ofBits .f32 0x45000000#32))
        * Ideal.div (∑ k, y k) (Ideal.ofBits .f32 0x45000000#32))
    (Ideal.ofBits .f32 0x40E00000#32)) (Ideal.ofBits .f32 0x00000000#32)

/-- The centred form of a row: the sum of the products of the deviations from the two means. -/
def centred (x y : Fin 2048 → EReal) : EReal :=
  max (Ideal.div (Ideal.ofBits .f32 0x00000000#32
      + ∑ k, (x k - Ideal.div (Ideal.ofBits .f32 0x00000000#32 + ∑ j, x j) (Ideal.ofBits .f32 0x45000000#32))
            * (y k - Ideal.div (Ideal.ofBits .f32 0x00000000#32 + ∑ j, y j) (Ideal.ofBits .f32 0x45000000#32)))
    (Ideal.ofBits .f32 0x40E00000#32)) (Ideal.ofBits .f32 0x00000000#32)

/-- A finite sum of reals, read in the extended reals, is the sum of the terms read there. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the reals: the sum of the products of the deviations is Σ x·y − (T · mx) · my, with T = 2048. -/
theorem real_identity (x y : Fin 2048 → ℝ) :
    ∑ k, (x k - (∑ j, x j) * (1 / 2048)) * (y k - (∑ j, y j) * (1 / 2048))
      = (∑ k, x k * y k) - (2048 * ((∑ k, x k) * (1 / 2048))) * ((∑ k, y k) * (1 / 2048)) := by
  simp only [sub_mul, mul_sub, Finset.sum_sub_distrib, ← Finset.sum_mul, ← Finset.mul_sum, Finset.sum_const,
    Finset.card_univ, Fintype.card_fin, nsmul_eq_mul, Nat.cast_ofNat]
  ring

/-- For rows of real numbers the centred form and the fused form are the same extended real. -/
theorem centred_eq_fused (x y : Fin 2048 → ℝ) :
    centred (fun k => (x k : EReal)) (fun k => (y k : EReal)) = fused (fun k => (x k : EReal)) (fun k => (y k : EReal)) := by
  unfold centred fused
  rw [ofBits_2048, ofBits_7, Ideal.ofBits_zero_f32]
  simp only [Ideal.div_coe (by norm_num : (2048 : ℝ) ≠ 0), Ideal.div_coe (by norm_num : (7 : ℝ) ≠ 0), zero_add]
  simp only [← coe_sum, ← EReal.coe_mul, ← EReal.coe_sub]
  rw [real_identity]

end Cert.RowCov

end
-- ==== Proof.CovSpec.lean ====
/-
  The result as one function of the two argument arrays.

  The arguments are two arrays X, Y of shape [16, 1024, 2048]: for each batch b and channel ch a row of T = 2048 samples.
  The result has one entry per (b, ch): the covariance numerator of row (b, ch) of X against row (b, ch) of Y, divided by
  7 and clipped below at zero. It is written here in both forms of a row's covariance, fused and centred; for arrays of real numbers the
  two agree entry by entry.
-/
import proofs.«127943_j42090679500988_1_alg».proof.Proof.RowCov
import Idealize.ShloMosaic.Lib.ValueIdx

noncomputable section

namespace Cert.RowCov

open Idealize.ShloMosaic Idealize.ShloMosaic.ValueIdx

/-- Row (b, ch) of an array of shape [16, 1024, 2048]. -/
def rowOf (X : (⟨3, ![16, 1024, 2048]⟩ : Shape).Idx → EReal) (b : Fin 16) (ch : Fin 1024) : Fin 2048 → EReal :=
  fun k => X (ix3 b ch k)

/-- The result array in the fused form: entry (b, ch) from the three sums of row (b, ch). -/
def covFused (X Y : (⟨3, ![16, 1024, 2048]⟩ : Shape).Idx → EReal) : (⟨2, ![16, 1024]⟩ : Shape).Idx → EReal :=
  fun i => fused (rowOf X (i 0) (i 1)) (rowOf Y (i 0) (i 1))

/-- The result array in the centred form: entry (b, ch) from the deviations of row (b, ch) from its means. -/
def covCentred (X Y : (⟨3, ![16, 1024, 2048]⟩ : Shape).Idx → EReal) : (⟨2, ![16, 1024]⟩ : Shape).Idx → EReal :=
  fun i => centred (rowOf X (i 0) (i 1)) (rowOf Y (i 0) (i 1))

/-- For arrays whose entries are all real numbers the two forms are the same array. -/
theorem covCentred_eq_covFused (X Y : (⟨3, ![16, 1024, 2048]⟩ : Shape).Idx → EReal)
    (hX : ∀ j, ∃ r : ℝ, X j = (r : EReal)) (hY : ∀ j, ∃ r : ℝ, Y j = (r : EReal)) :
    covCentred X Y = covFused X Y := by
  choose xr hxr using hX
  choose yr hyr using hY
  funext i
  unfold covCentred covFused
  have ex : rowOf X (i 0) (i 1) = fun k => ((xr (ix3 (i 0) (i 1) k) : ℝ) : EReal) := funext fun k => hxr _
  have ey : rowOf Y (i 0) (i 1) = fun k => ((yr (ix3 (i 0) (i 1) k) : ℝ) : EReal) := funext fun k => hyr _
  rw [ex, ey]
  exact centred_eq_fused _ _

end Cert.RowCov

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.ChunkSum.lean ====
/-
  A row of 2048 entries summed in sixteen chunks of 128.

  The kernel walks a row of T = 2048 samples in sixteen steps: step c adds up the 128 entries 128·c, …, 128·c + 127 and
  adds that chunk sum onto a running total that starts at zero. Addition on the extended reals is commutative and
  associative (the infinities included), so the running total after the sixteen steps is the one sum over the whole row.
-/
import Idealize.ShloMosaic.PureOps.Ideal
import proofs.«127943_j42090679500988_1_alg».proof.Proof.LibBlockSums

noncomputable section

namespace Cert.RowCov

open Idealize.ShloMosaic

/-- Zero, then the sixteen chunk sums added one after the other, is the sum of the first 2048 entries. -/
theorem sixteen_chunks (f : ℕ → EReal) :
    (0 : EReal) + (∑ l : Fin 128, f (0 + l.val)) + (∑ l : Fin 128, f (128 + l.val)) + (∑ l : Fin 128, f (256 + l.val))
      + (∑ l : Fin 128, f (384 + l.val)) + (∑ l : Fin 128, f (512 + l.val)) + (∑ l : Fin 128, f (640 + l.val))
      + (∑ l : Fin 128, f (768 + l.val)) + (∑ l : Fin 128, f (896 + l.val)) + (∑ l : Fin 128, f (1024 + l.val))
      + (∑ l : Fin 128, f (1152 + l.val)) + (∑ l : Fin 128, f (1280 + l.val)) + (∑ l : Fin 128, f (1408 + l.val))
      + (∑ l : Fin 128, f (1536 + l.val)) + (∑ l : Fin 128, f (1664 + l.val)) + (∑ l : Fin 128, f (1792 + l.val))
      + (∑ l : Fin 128, f (1920 + l.val))
    = ∑ n ∈ Finset.range 2048, f n := by
  rw [show (2048 : ℕ) = 16 * 128 from rfl, ← Idealize.ShloMosaic.BlockSums.sum_blocks f 128 16]
  simp only [Finset.sum_range_succ, Finset.sum_range_zero, Nat.reduceMul]

/-- A row of 2048 entries as a sequence on the naturals, zero past the row's end. -/
def rowSeq (r : Fin 2048 → EReal) (n : ℕ) : EReal := if h : n < 2048 then r ⟨n, h⟩ else 0

theorem rowSeq_of_lt (r : Fin 2048 → EReal) {n : ℕ} (h : n < 2048) : rowSeq r n = r ⟨n, h⟩ := dif_pos h

/-- The entrywise product of two rows, as sequences: the product of the two sequences (past the end both are zero). -/
theorem rowSeq_mul (r s : Fin 2048 → EReal) (n : ℕ) : rowSeq r n * rowSeq s n = rowSeq (fun k => r k * s k) n := by
  unfold rowSeq
  by_cases h : n < 2048
  · rw [dif_pos h, dif_pos h, dif_pos h]
  · rw [dif_neg h, dif_neg h, dif_neg h, mul_zero]

/-- The first 2048 entries of that sequence sum to the row's sum. -/
theorem sum_rowSeq (r : Fin 2048 → EReal) : ∑ n ∈ Finset.range 2048, rowSeq r n = ∑ k : Fin 2048, r k := by
  rw [Finset.sum_range]
  exact Finset.sum_congr rfl fun k _ => rowSeq_of_lt r k.isLt

end Cert.RowCov

end
-- ==== Proof.BlockRow.lean ====
/-
  What one grid point of the kernel computes for one row of its block.

  The body holds a block of 8 × 128 rows of T = 2048 samples of each input. For every row it walks the samples in sixteen
  chunks of 128 lanes: chunk c is the rectangle of the block at lane offset 128·c, and the body adds the chunk's lane sums
  of x, of y and of x·y onto three running totals that start at zero. Read at a row (p, q), each running total is zero
  plus sixteen chunk sums added in order, and that is the one sum over the row's 2048 samples. The last payload turns the
  three totals into max((Σxy − (T · (Σx / T)) · (Σy / T)) / 7, 0): the fused form of the row's covariance.
-/
import proofs.«127943_j42090679500988_1_alg».proof.Proof.Gen.KernelIdeal.Skeleton
import proofs.«127943_j42090679500988_1_alg».proof.Proof.ChunkSum
import proofs.«127943_j42090679500988_1_alg».proof.Proof.RowCov
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.BlockRow

open Cert.KernelIdeal Cert.KernelIdeal.Gen Cert.RowCov

variable {F : FTy → Type} [FloatOps F]

/-- A chunk of 128 lanes at lane offset o lies inside the block when o + 128 ≤ 2048. -/
theorem chunk_inb (o : ℕ) (h : o + 128 ≤ 2048) :
    ∀ a : Fin S8x128x2048.rank, (![0, 0, o] : Fin 3 → ℕ) a + (![8, 128, 128] : Fin 3 → ℕ) a ≤ S8x128x2048.size a := by
  intro a
  match a with
  | ⟨0, _⟩ => show 0 + 8 ≤ 8; omega
  | ⟨1, _⟩ => show 0 + 128 ≤ 128; omega
  | ⟨2, _⟩ => show o + 128 ≤ 2048; exact h

/-- The chunk of a block at lane offset o: all 8 × 128 rows, lanes o, …, o + 127. -/
def chunk (x : Vec F S8x128x2048 .f32) (o : ℕ) (h : o + 128 ≤ 2048) : Vec F S8x128x128 .f32 :=
  View.ld x (Rect.unit (s := S8x128x2048) ![0, 0, o] ![8, 128, 128] (chunk_inb o h))

/-- The running total of x's lane sums after the sixteen chunks. -/
def sumsX (x : Vec F S8x128x2048 .f32) : FVec F S8x128 .f32 :=
  k0_pay17 (k0_pay14 (k0_pay11 (k0_pay9 (k0_pay5 (k0_pay2 (chunk x 0 (by omega)) (chunk x 128 (by omega))) (chunk x 256 (by omega)) (chunk x 384 (by omega)) (chunk x 512 (by omega))) (chunk x 640 (by omega)) (chunk x 768 (by omega)) (chunk x 896 (by omega))) (chunk x 1024 (by omega)) (chunk x 1152 (by omega))) (chunk x 1280 (by omega)) (chunk x 1408 (by omega)) (chunk x 1536 (by omega))) (chunk x 1664 (by omega)) (chunk x 1792 (by omega)) (chunk x 1920 (by omega))

/-- The running total of y's lane sums after the sixteen chunks. -/
def sumsY (y : Vec F S8x128x2048 .f32) : FVec F S8x128 .f32 :=
  k0_pay18 (k0_pay15 (k0_pay12 (k0_pay10 (k0_pay6 (k0_pay3 (chunk y 0 (by omega)) (chunk y 128 (by omega))) (chunk y 256 (by omega)) (chunk y 384 (by omega)) (chunk y 512 (by omega))) (chunk y 640 (by omega)) (chunk y 768 (by omega)) (chunk y 896 (by omega))) (chunk y 1024 (by omega)) (chunk y 1152 (by omega))) (chunk y 1280 (by omega)) (chunk y 1408 (by omega)) (chunk y 1536 (by omega))) (chunk y 1664 (by omega)) (chunk y 1792 (by omega)) (chunk y 1920 (by omega))

/-- The running total of the lane sums of the products x·y after the sixteen chunks. -/
def sumsXY (x y : Vec F S8x128x2048 .f32) : FVec F S8x128 .f32 :=
  k0_pay19 (k0_pay16 (k0_pay13 (k0_pay8 (k0_pay7 (k0_pay4 (chunk x 0 (by omega)) (chunk y 0 (by omega)) (chunk x 128 (by omega)) (chunk y 128 (by omega))) (chunk x 256 (by omega)) (chunk y 256 (by omega)) (chunk x 384 (by omega)) (chunk y 384 (by omega)) (chunk x 512 (by omega)) (chunk y 512 (by omega))) (chunk x 640 (by omega)) (chunk y 640 (by omega)) (chunk x 768 (by omega)) (chunk y 768 (by omega))) (chunk x 896 (by omega)) (chunk y 896 (by omega)) (chunk x 1024 (by omega)) (chunk y 1024 (by omega)) (chunk x 1152 (by omega)) (chunk y 1152 (by omega))) (chunk x 1280 (by omega)) (chunk y 1280 (by omega)) (chunk x 1408 (by omega)) (chunk y 1408 (by omega)) (chunk x 1536 (by omega)) (chunk y 1536 (by omega))) (chunk x 1664 (by omega)) (chunk y 1664 (by omega)) (chunk x 1792 (by omega)) (chunk y 1792 (by omega)) (chunk x 1920 (by omega)) (chunk y 1920 (by omega))

/-! ## At the ideal values -/

/-- A lane sum of a chunk, at row (p, q): the sum of the row's 128 lanes. -/
theorem lane_sum (v : S8x128x128.Idx → EReal) (h : S8x128x128.Reduces [2] S8x128) (p : Fin 8) (q : Fin 128) :
    Ideal.reduceAdd h v (ix2 p q) = ∑ l : Fin 128, v (ix3 p q l) := by
  refine (Ideal.reduceAdd_single h v (ix2 p q)).trans ?_
  exact Finset.sum_congr rfl fun l _ => congrArg v (funext fun a => Fin.ext (by
    match a with | ⟨0, _⟩ => rfl | ⟨1, _⟩ => rfl | ⟨2, _⟩ => rfl))

/-- Lane l of row (p, q) of the chunk at offset o is sample o + l of that row of the block. -/
theorem chunk_at (x : Vec Ideal S8x128x2048 .f32) (o : ℕ) (h : o + 128 ≤ 2048) (p : Fin 8) (q : Fin 128) (l : Fin 128) :
    chunk x o h (ix3 p q l) = rowSeq (fun k => x (ix3 p q k)) (o + l.val) := by
  have ho : o + l.val < 2048 := by have := l.isLt; omega
  rw [rowSeq_of_lt _ ho]
  unfold chunk
  show x _ = x _
  congr 1
  funext a
  apply Fin.ext
  match a with
  | ⟨0, _⟩ => show 0 + 1 * p.val = p.val; omega
  | ⟨1, _⟩ => show 0 + 1 * q.val = q.val; omega
  | ⟨2, _⟩ => show o + 1 * l.val = o + l.val; omega

/-- x's running total at row (p, q), for any sixteen chunks: zero plus their lane sums in order. -/
theorem nestX_at (v0 v1 v2 v3 v4 v5 v6 v7 v8 v9 v10 v11 v12 v13 v14 v15 : Vec Ideal S8x128x128 .f32) (p : Fin 8) (q : Fin 128) :
    (k0_pay17 (k0_pay14 (k0_pay11 (k0_pay9 (k0_pay5 (k0_pay2 v0 v1) v2 v3 v4) v5 v6 v7) v8 v9) v10 v11 v12) v13 v14 v15) (ix2 p q)
    = (0 : EReal) + ∑ l : Fin 128, v0 (ix3 p q l) + ∑ l : Fin 128, v1 (ix3 p q l) + ∑ l : Fin 128, v2 (ix3 p q l) + ∑ l : Fin 128, v3 (ix3 p q l) + ∑ l : Fin 128, v4 (ix3 p q l) + ∑ l : Fin 128, v5 (ix3 p q l) + ∑ l : Fin 128, v6 (ix3 p q l) + ∑ l : Fin 128, v7 (ix3 p q l) + ∑ l : Fin 128, v8 (ix3 p q l) + ∑ l : Fin 128, v9 (ix3 p q l) + ∑ l : Fin 128, v10 (ix3 p q l) + ∑ l : Fin 128, v11 (ix3 p q l) + ∑ l : Fin 128, v12 (ix3 p q l) + ∑ l : Fin 128, v13 (ix3 p q l) + ∑ l : Fin 128, v14 (ix3 p q l) + ∑ l : Fin 128, v15 (ix3 p q l) := by
  simp only [k0_pay17, k0_pay14, k0_pay11, k0_pay9, k0_pay5, k0_pay2, addf_apply, broadcast_apply, multiReduction,
    Ideal.reduceAdd_def, lane_sum, Scalar.ofBits, Ideal.ofBits_def, Ideal.ofBits_zero_f32]

/-- y's running total at row (p, q), likewise. -/
theorem nestY_at (v0 v1 v2 v3 v4 v5 v6 v7 v8 v9 v10 v11 v12 v13 v14 v15 : Vec Ideal S8x128x128 .f32) (p : Fin 8) (q : Fin 128) :
    (k0_pay18 (k0_pay15 (k0_pay12 (k0_pay10 (k0_pay6 (k0_pay3 v0 v1) v2 v3 v4) v5 v6 v7) v8 v9) v10 v11 v12) v13 v14 v15) (ix2 p q)
    = (0 : EReal) + ∑ l : Fin 128, v0 (ix3 p q l) + ∑ l : Fin 128, v1 (ix3 p q l) + ∑ l : Fin 128, v2 (ix3 p q l) + ∑ l : Fin 128, v3 (ix3 p q l) + ∑ l : Fin 128, v4 (ix3 p q l) + ∑ l : Fin 128, v5 (ix3 p q l) + ∑ l : Fin 128, v6 (ix3 p q l) + ∑ l : Fin 128, v7 (ix3 p q l) + ∑ l : Fin 128, v8 (ix3 p q l) + ∑ l : Fin 128, v9 (ix3 p q l) + ∑ l : Fin 128, v10 (ix3 p q l) + ∑ l : Fin 128, v11 (ix3 p q l) + ∑ l : Fin 128, v12 (ix3 p q l) + ∑ l : Fin 128, v13 (ix3 p q l) + ∑ l : Fin 128, v14 (ix3 p q l) + ∑ l : Fin 128, v15 (ix3 p q l) := by
  simp only [k0_pay18, k0_pay15, k0_pay12, k0_pay10, k0_pay6, k0_pay3, addf_apply, broadcast_apply, multiReduction,
    Ideal.reduceAdd_def, lane_sum, Scalar.ofBits, Ideal.ofBits_def, Ideal.ofBits_zero_f32]

/-- The products' running total at row (p, q): zero plus the lane sums of the chunks' entrywise products in order. -/
theorem nestXY_at (u0 u1 u2 u3 u4 u5 u6 u7 u8 u9 u10 u11 u12 u13 u14 u15 w0 w1 w2 w3 w4 w5 w6 w7 w8 w9 w10 w11 w12 w13 w14 w15 : Vec Ideal S8x128x128 .f32) (p : Fin 8) (q : Fin 128) :
    (k0_pay19 (k0_pay16 (k0_pay13 (k0_pay8 (k0_pay7 (k0_pay4 u0 w0 u1 w1) u2 w2 u3 w3 u4 w4) u5 w5 u6 w6) u7 w7 u8 w8 u9 w9) u10 w10 u11 w11 u12 w12) u13 w13 u14 w14 u15 w15) (ix2 p q)
    = (0 : EReal) + ∑ l : Fin 128, u0 (ix3 p q l) * w0 (ix3 p q l) + ∑ l : Fin 128, u1 (ix3 p q l) * w1 (ix3 p q l) + ∑ l : Fin 128, u2 (ix3 p q l) * w2 (ix3 p q l) + ∑ l : Fin 128, u3 (ix3 p q l) * w3 (ix3 p q l) + ∑ l : Fin 128, u4 (ix3 p q l) * w4 (ix3 p q l) + ∑ l : Fin 128, u5 (ix3 p q l) * w5 (ix3 p q l) + ∑ l : Fin 128, u6 (ix3 p q l) * w6 (ix3 p q l) + ∑ l : Fin 128, u7 (ix3 p q l) * w7 (ix3 p q l) + ∑ l : Fin 128, u8 (ix3 p q l) * w8 (ix3 p q l) + ∑ l : Fin 128, u9 (ix3 p q l) * w9 (ix3 p q l) + ∑ l : Fin 128, u10 (ix3 p q l) * w10 (ix3 p q l) + ∑ l : Fin 128, u11 (ix3 p q l) * w11 (ix3 p q l) + ∑ l : Fin 128, u12 (ix3 p q l) * w12 (ix3 p q l) + ∑ l : Fin 128, u13 (ix3 p q l) * w13 (ix3 p q l) + ∑ l : Fin 128, u14 (ix3 p q l) * w14 (ix3 p q l) + ∑ l : Fin 128, u15 (ix3 p q l) * w15 (ix3 p q l) := by
  simp only [k0_pay19, k0_pay16, k0_pay13, k0_pay8, k0_pay7, k0_pay4, addf_apply, mulf_apply, broadcast_apply, multiReduction,
    Ideal.reduceAdd_def, lane_sum, Scalar.ofBits, Ideal.ofBits_def, Ideal.ofBits_zero_f32]

/-- x's running total at row (p, q) is the sum of the row's 2048 samples. -/
theorem sumsX_at (x : Vec Ideal S8x128x2048 .f32) (p : Fin 8) (q : Fin 128) :
    sumsX x (ix2 p q) = ∑ k : Fin 2048, x (ix3 p q k) := by
  unfold sumsX
  rw [nestX_at]
  simp only [chunk_at]
  rw [sixteen_chunks, sum_rowSeq]

/-- y's running total at row (p, q) is the sum of the row's 2048 samples. -/
theorem sumsY_at (y : Vec Ideal S8x128x2048 .f32) (p : Fin 8) (q : Fin 128) :
    sumsY y (ix2 p q) = ∑ k : Fin 2048, y (ix3 p q k) := by
  unfold sumsY
  rw [nestY_at]
  simp only [chunk_at]
  rw [sixteen_chunks, sum_rowSeq]

/-- The products' running total at row (p, q) is the sum of the row's 2048 products. -/
theorem sumsXY_at (x y : Vec Ideal S8x128x2048 .f32) (p : Fin 8) (q : Fin 128) :
    sumsXY x y (ix2 p q) = ∑ k : Fin 2048, x (ix3 p q k) * y (ix3 p q k) := by
  unfold sumsXY
  rw [nestXY_at]
  simp only [chunk_at, rowSeq_mul]
  rw [sixteen_chunks, sum_rowSeq]

/-- The stored value at row (p, q): the fused covariance of the block's two rows. -/
theorem block_value (x y : Vec Ideal S8x128x2048 .f32) (p : Fin 8) (q : Fin 128) :
    k0_pay1 (sumsX x) (sumsY y) (sumsXY x y) (ix2 p q)
      = fused (fun k => x (ix3 p q k)) (fun k => y (ix3 p q k)) := by
  unfold fused
  rw [← sumsX_at, ← sumsY_at, ← sumsXY_at]
  rfl

end Cert.KernelIdeal.BlockRow

end
-- ==== Proof.KernelValue.lean ====
/-
  The kernel's result array is the fused form of the two argument arrays.

  The grid has 2 × 8 points. Point (i, j) stages block (i, j, 0) of each input — batches 8·i, …, 8·i + 7, channels
  128·j, …, 128·j + 127, all 2048 samples — and writes block (i, j) of the result. Row (p, q) of an input block is row
  (8·i + p, 128·j + q) of the array, and entry (p, q) of the output block is entry (8·i + p, 128·j + q) of the result.
  So what a point writes back is the restriction of one whole-array function, the fused covariance of rows, to its
  block; the sixteen blocks tile the [16, 1024] result (entry (b, ch) lies in block (b / 8, ch / 128)), so after the run
  the result array is that function.
-/
import proofs.«127943_j42090679500988_1_alg».proof.Proof.Gen.KernelIdeal.Value
import proofs.«127943_j42090679500988_1_alg».proof.Proof.BlockRow
import proofs.«127943_j42090679500988_1_alg».proof.Proof.CovSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.BlockRow Cert.RowCov

theorem hz : (![0, 0] : Fin 2 → Nat) = fun _ => 0 := funext fun a => by fin_cases a <;> rfl

section piece
variable {F : FTy → Type} [FloatOps F]

/-- What the body leaves in the output block: its one store covers the block, and the stored value is the last payload
    of the three running totals over the chunks of the two input blocks. -/
theorem out_piece (c : Dev nD) (i : grid0.Coords) (a2 : Memref sig .tc .vmem S8x128x2048 .f32) (h2 : a2.IsWhole)
    (a3 : Memref sig .tc .vmem S8x128x2048 .f32) (h3 : a3.IsWhole) (a4 : Memref sig .tc .vmem S8x128 .f32) (h4 : a4.IsWhole)
    (x0 x1 : Vec F S8x128x2048 .f32) :
    out0_A_2 c i a2 h2 a3 h3 a4 h4 x0 x1 = k0_pay1 (sumsX x0) (sumsY x1) (sumsXY x0 x1) := by
  unfold out0_A_2
  rw [View.read_writes_eq_canon _ _ _ (cover0_A_2 c i a2 h2 a3 h3 a4 h4 x0 x1)]
  unfold kernelRun0_A
  dsimp only
  sl_unfold_words
  rw [View.canon_unit_zero hz]
  simp only [View.readAt_eq_ld, h2.read_unread, h3.read_unread, View.ld_unit_zero (S := S8x128) hz]
  rfl

end piece

variable (m : (ℓ : Loc nD τ sig) → Buf (Elt Ideal) ℓ) (ρ : Dev nD → PrngReg)

/-- The two input blocks at a point and the two argument arrays, at their literal shapes. -/
abbrev xblk (c : Dev nD) (t : Fin cfg0.N) : Vec Ideal S8x128x2048 .f32 := iblk m c 0 t
abbrev yblk (c : Dev nD) (t : Fin cfg0.N) : Vec Ideal S8x128x2048 .f32 := iblk m c 1 t
abbrev xarr (c : Dev nD) : Vec Ideal S16x1024x2048 .f32 := V m c main_arg0
abbrev yarr (c : Dev nD) : Vec Ideal S16x1024x2048 .f32 := V m c main_arg1

/-- The index maps over the grid: both inputs' blocks sit at the output's block index on the batch and channel axes
    and at 0 on the sample axis. -/
theorem idx_facts : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = win0_2.index t (1 : Fin 2)
    ∧ win0_1.index t (2 : Fin 3) = 0 :=
  (by decide +kernel : ∀ t : Fin grid0.N, _)

/-- Every block index (i, j) with i < 2, j < 8 is some point's. -/
theorem idx_onto : ∀ (q0 : Fin 2) (q1 : Fin 8), ∃ t : Fin cfg0.N, win0_2.index t = ![q0.val, q1.val] :=
  (by decide +kernel : ∀ (q0 : Fin 2) (q1 : Fin 8), ∃ t : Fin grid0.N, win0_2.index t = ![q0.val, q1.val])

/-- Sample k of row (p, q) of x's block at point t is sample k of the array's row at the output block's entry (p, q). -/
theorem xblk_at (c : Dev nD) (t : Fin cfg0.N) (p : Fin 8) (q : Fin 128) (k : Fin 2048) :
    xblk m c t (ix3 p q k)
      = xarr m c (ix3 (n0 := 16) (n1 := 1024) (n2 := 2048) (((cfg0.win 2).blk t).view.emb (ix2 p q) 0)
          (((cfg0.win 2).blk t).view.emb (ix2 p q) 1) k) := by
  obtain ⟨e0, e1, e2, -, -, -⟩ := idx_facts t
  show V m c main_arg0 (((cfg0.win 0).blk t).view.emb (ix3 p q k)) = V m c main_arg0 _
  congr 1
  funext a
  apply Fin.ext
  match a with
  | ⟨0, _⟩ => show win0_0.index t (0 : Fin 3) * 8 + 1 * p.val = win0_2.index t (0 : Fin 2) * 8 + 1 * p.val; rw [e0]
  | ⟨1, _⟩ => show win0_0.index t (1 : Fin 3) * 128 + 1 * q.val = win0_2.index t (1 : Fin 2) * 128 + 1 * q.val; rw [e1]
  | ⟨2, _⟩ => show win0_0.index t (2 : Fin 3) * 2048 + 1 * k.val = k.val; rw [e2]; omega

/-- The same for y's block. -/
theorem yblk_at (c : Dev nD) (t : Fin cfg0.N) (p : Fin 8) (q : Fin 128) (k : Fin 2048) :
    yblk m c t (ix3 p q k)
      = yarr m c (ix3 (n0 := 16) (n1 := 1024) (n2 := 2048) (((cfg0.win 2).blk t).view.emb (ix2 p q) 0)
          (((cfg0.win 2).blk t).view.emb (ix2 p q) 1) k) := by
  obtain ⟨-, -, -, e0, e1, e2⟩ := idx_facts t
  show V m c main_arg1 (((cfg0.win 1).blk t).view.emb (ix3 p q k)) = V m c main_arg1 _
  congr 1
  funext a
  apply Fin.ext
  match a with
  | ⟨0, _⟩ => show win0_1.index t (0 : Fin 3) * 8 + 1 * p.val = win0_2.index t (0 : Fin 2) * 8 + 1 * p.val; rw [e0]
  | ⟨1, _⟩ => show win0_1.index t (1 : Fin 3) * 128 + 1 * q.val = win0_2.index t (1 : Fin 2) * 128 + 1 * q.val; rw [e1]
  | ⟨2, _⟩ => show win0_1.index t (2 : Fin 3) * 2048 + 1 * k.val = k.val; rw [e2]; omega

/-- What point t writes back is block t of the fused form of the argument arrays. -/
theorem flushed_eq (c : Dev nD) (t : Fin cfg0.N) :
    (dats m 0 c).flushed 2 t = ((cfg0.win 2).blk t).view.read (Elt Ideal) (covFused (xarr m c) (yarr m c)) := by
  rw [Value.flushed2_A]
  funext j
  obtain ⟨p, q, rfl⟩ : ∃ (p : Fin 8) (q : Fin 128), j = ix2 p q := ⟨j 0, j 1, eq_ix2 j⟩
  show out0_A_2 c (grid0.coords t) (ms0_0 t) (hs0_0 t) (ms0_1 t) (hs0_1 t) (ms0_2 t) (hs0_2 t) (xblk m c t) (yblk m c t) (ix2 p q)
      = covFused (xarr m c) (yarr m c) (((cfg0.win 2).blk t).view.emb (ix2 p q))
  refine (congrFun (out_piece (F := Ideal) c (grid0.coords t) (ms0_0 t) (hs0_0 t) (ms0_1 t) (hs0_1 t) (ms0_2 t) (hs0_2 t)
    (xblk m c t) (yblk m c t)) (ix2 p q)).trans ?_
  refine (block_value (xblk m c t) (yblk m c t) p q).trans ?_
  unfold covFused rowOf
  rw [funext (xblk_at m c t p q), funext (yblk_at m c t p q)]

/-- An entry of the result is in point t's block iff each coordinate is in the block's range on its axis. -/
theorem mem_blk (t : Fin cfg0.N) (i : S16x1024.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v0).slice (win0_2.rect t)).set ↔ _
  rw [View.set_slice_whole, Rect.mem_set_unit]
  exact Iff.rfl

/-- Every entry (b, ch) of the result lies in the block of the point with block index (b / 8, ch / 128). -/
theorem cover (i : S16x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  obtain ⟨t, ht⟩ := idx_onto ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- After the run the result array is the fused form of the argument arrays. -/
theorem final (c : Dev nD) : (dats m 0 c).arrAt 2 cfg0.N = covFused (xarr m c) (yarr m c) :=
  (dats m 0 c).arrAt_eq_of_cover 2 (covFused (xarr m c) (yarr m c)) (fun t _ => flushed_eq m c t) cover

/-- The kernel's run: it ends with the result array at the fused form of the launch contents of the arguments, which
    are unchanged. -/
theorem run : θ_run defs (onTc (τ := τ) (main (F := Ideal))) ⟨m, fun _ => 0, ρ⟩ fun r => ∀ c : Dev nD,
      r.2.mem ((c : Thread nD τ).loc main_v0)
        = covFused (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference's result, entry by entry, is the centred form.

  The reference takes each row's mean as (0 + Σ x) / 2048, broadcasts it back along the row, subtracts it from every
  sample, multiplies the two arrays of deviations entry by entry, sums each row of products from zero, divides by 7 and
  takes the maximum with zero. Read at an entry (b, ch), every broadcast reads its operand at the same (b, ch), and each
  of the three row sums runs over the samples of row (b, ch): this is the centred form of that row.
-/
import proofs.«127943_j42090679500988_1_alg».proof.Proof.Gen.ReferenceIdeal.Read
import proofs.«127943_j42090679500988_1_alg».proof.Proof.CovSpec
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.RowCov

/-- Sample k of row (b, ch), as the row sum of the products indexes it. -/
theorem idx_sample (i : S16x1024.Idx) (k : Fin 2048) :
    idx_main_v13 i k = ix3 (n0 := 16) (n1 := 1024) (n2 := 2048) (i 0) (i 1) k :=
  funext fun a => Fin.ext (by match a with | ⟨0, _⟩ => rfl | ⟨1, _⟩ => rfl | ⟨2, _⟩ => rfl)

/-- Sample j of the row, as x's mean indexes it from the position of sample k: the broadcasts keep (b, ch). -/
theorem idx_mean_x (i : S16x1024.Idx) (k j : Fin 2048) :
    idx_main_v0 (idx_main_v1 (idx_main_v4 (idx_main_v13 i k))) j = idx_main_v13 i j :=
  funext fun a => Fin.ext (by match a with | ⟨0, _⟩ => rfl | ⟨1, _⟩ => rfl | ⟨2, _⟩ => rfl)

/-- The same for y's mean. -/
theorem idx_mean_y (i : S16x1024.Idx) (k j : Fin 2048) :
    idx_main_v6 (idx_main_v7 (idx_main_v10 (idx_main_v13 i k))) j = idx_main_v13 i j :=
  funext fun a => Fin.ext (by match a with | ⟨0, _⟩ => rfl | ⟨1, _⟩ => rfl | ⟨2, _⟩ => rfl)

/-- The reference's result array is the centred form of the two argument arrays. -/
theorem result_eq (x0 x1 : (⟨S16x1024x2048, .f32⟩ : BufTy).Contents (Elt Ideal)) :
    val_main_v17 (F := Ideal) x0 x1 = covCentred x0 x1 := by
  funext i
  rw [val_main_v17_apply, val_main_v15_apply, val_main_v13_apply, val_main_v14_apply, val_main_v16_apply,
    val_main_cst_3_apply, val_main_cst_4_apply, val_main_cst_5_apply]
  simp only [val_main_v12_apply, val_main_v5_apply, val_main_v11_apply, val_main_v4_apply, val_main_v10_apply,
    val_main_v3_apply, val_main_v9_apply, val_main_v1_apply, val_main_v7_apply, val_main_v2_apply, val_main_v8_apply,
    val_main_v0_apply, val_main_v6_apply, val_main_cst_apply, val_main_cst_0_apply, val_main_cst_1_apply,
    val_main_cst_2_apply, idx_mean_x, idx_mean_y,
    Ideal.maximumf_def, Ideal.hostDivf_def, Ideal.mulf_def, Ideal.subf_def, Ideal.ofBits_def]
  simp only [idx_sample]
  rfl

end Cert.ReferenceIdeal.RefValue

end
-- ==== Proof.Finite.lean ====
/-
  Under the precondition every entry of both argument arrays is a real number.

  The precondition says, for each argument, that all entries satisfy |x| < +∞, and joins the two with "and". On the
  extended reals |x| is max(x, −x), which is +∞ exactly at the two infinities; so an entry with |x| < +∞ is neither of
  them, and is a real number.
-/
import proofs.«127943_j42090679500988_1_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Finite

open Cert.Pre_finite_inputs

variable [Facts]
open Facts

instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec
  · exfalso; simp [Ideal.cmp] at h
  · exact ⟨_, rfl⟩
  · exfalso; simp [Ideal.cmp] at h

/-- If the precondition's predicate is all ones at two arrays, every entry of both is a real number. -/
theorem entries_real (X Y : FVec Ideal S16x1024x2048 .f32) (h : fn (F := Ideal) X Y = fun _ => 1#1) :
    (∀ j, ∃ r : ℝ, X j = (r : EReal)) ∧ (∀ j, ∃ r : ℝ, Y j = (r : EReal)) := by
  have h0 := congrFun h ix0
  dsimp only [fn] at h0
  obtain ⟨hx, hy⟩ := IntOp.andi_eq_one.1 h0
  refine ⟨fun j => real_of_abs_lt_inf _ ?_, fun j => real_of_abs_lt_inf _ ?_⟩
  · exact Host.reduce_andi_all _ _ _ _ ix0 hx j
  · exact Host.reduce_andi_all _ _ _ _ ix0 hy j

end Cert.Pre_finite_inputs.Finite

end
-- ==== Proof.lean ====
/-
  The temporal cross-covariance kernel against its reference, over the extended reals.

  For inputs X, Y of shape [16, 1024, 2048] both programs return, for every batch b and channel ch, the covariance
  numerator of the 2048 samples of row (b, ch) of X against row (b, ch) of Y, divided by 7 and clipped below at 0.

  The reference centres first: mx = (Σ x) / 2048, my = (Σ y) / 2048, then Σ (x − mx)(y − my). The kernel makes one pass
  that accumulates Σ x, Σ y and Σ x·y in sixteen chunks of 128 samples and then forms Σ x·y − (2048 · mx) · my. The two
  agree because Σ (x − mx)(y − my) = Σ x·y − my · Σ x − mx · Σ y + 2048 · mx · my and Σ x = 2048 · mx, Σ y = 2048 · my.
  This expansion distributes products over sums, which on the extended reals is valid only away from the infinities:
  the precondition (every input entry finite) is what makes every entry a real number, and it is used exactly there.
  The regrouping of a row's sum into sixteen chunk sums needs only that addition is commutative and associative.

  Where each step lives:
    RowCov      the two forms of one row and their equality for real rows
    ChunkSum    sixteen chunk sums added in order are the row's sum
    CovSpec     the two forms as functions of whole arrays
    BlockRow    what one grid point stores for one row of its block: the fused form of that row
    KernelValue the result array after the kernel's run is the fused form of the arguments
    RefValue    the reference's result is the centred form of the arguments
    Finite      under the precondition every entry is a real number
-/
import proofs.«127943_j42090679500988_1_alg».proof.Defs
import proofs.«127943_j42090679500988_1_alg».proof.Proof.Gen.Kernel
import proofs.«127943_j42090679500988_1_alg».proof.Proof.Gen.Kernel.Skeleton
import proofs.«127943_j42090679500988_1_alg».proof.Proof.Gen.Kernel.Launch
import proofs.«127943_j42090679500988_1_alg».proof.Proof.Gen.Kernel.Points
import proofs.«127943_j42090679500988_1_alg».proof.Proof.Gen.Kernel.Frame
import proofs.«127943_j42090679500988_1_alg».proof.Proof.Gen.KernelIdeal
import proofs.«127943_j42090679500988_1_alg».proof.Proof.Gen.KernelIdeal.Skeleton
import proofs.«127943_j42090679500988_1_alg».proof.Proof.Gen.KernelIdeal.Launch
import proofs.«127943_j42090679500988_1_alg».proof.Proof.Gen.KernelIdeal.Points
import proofs.«127943_j42090679500988_1_alg».proof.Proof.Gen.KernelIdeal.Frame
import proofs.«127943_j42090679500988_1_alg».proof.Proof.Gen.ReferenceIdeal
import proofs.«127943_j42090679500988_1_alg».proof.Proof.Gen.KernelIdeal.Value
import proofs.«127943_j42090679500988_1_alg».proof.Proof.Gen.ReferenceIdeal.Run
import proofs.«127943_j42090679500988_1_alg».proof.Proof.Gen.ReferenceIdeal.Read
import proofs.«127943_j42090679500988_1_alg».proof.Proof.Gen.Pre_finite_inputs
import proofs.«127943_j42090679500988_1_alg».proof.Proof.CovSpec
import proofs.«127943_j42090679500988_1_alg».proof.Proof.KernelValue
import proofs.«127943_j42090679500988_1_alg».proof.Proof.RefValue
import proofs.«127943_j42090679500988_1_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and are finite, the kernel ends at the fused form of the arguments and the reference at
    the centred form; every entry being a real number, the two forms are the same array. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]
  obtain ⟨hX, hY⟩ := Cert.Pre_finite_inputs.Finite.entries_real _ _ (hpre c)
  exact Cert.RowCov.covCentred_eq_covFused _ _ hX hY

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
